-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S16384x1024 .f32) (main_arg1 : FVec F S4096x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S16384x1024 : Shape := ⟨2, ![16384, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S1024x1024 : Shape := ⟨2, ![1024, 1024]⟩
abbrev S512x1024 : Shape := ⟨2, ![512, 1024]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S4096_S1x4096_1 : S4096.BroadcastsInDim S1x4096 (![1] : Fin 1 → Fin S1x4096.rank)
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x4096.size a
  hwx0_4 : ∀ i : grid0.Coords, EltTy.bits .f32 = 32 ∨ (Rect.block (s := S16384x4096) S1024x512.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.SqDist.lean ====
/-
  Pairwise squared Euclidean distance in its expanded form, on the extended reals.

  For a matrix `x` of 16384 rows and a matrix `y` of 4096 rows, both of width 1024, the entry at
  row `p`, column `q` of the result is

      (‖x_p‖² + ‖y_q‖²) − 2 · ⟨x_p, y_q⟩,

  where ‖x_p‖² is the sum over the 1024 columns of the squares of row `p`, started from the zero word,
  ⟨x_p, y_q⟩ is the sum over the columns of the products of the two rows, and `2` is the word
  `0x40000000`.  The grouping is the one written: the two squared norms are added first and the doubled
  inner product is subtracted from their sum.  Nothing is evaluated: the zero word and the word of two
  stay as the patterns they are, so no law of the extended reals is used and no entry need be finite.
-/
import Idealize.ShloMosaic.PureOps.Ideal
import Idealize.ShloMosaic.Lib.ValueIdx

noncomputable section

open scoped BigOperators

namespace Cert.SqDist

open Idealize.ShloMosaic Idealize.ShloMosaic.ValueIdx

/-- The squared norm of row `p` of the 16384-row matrix: the zero word plus the sum of the squares along the row. -/
def normSqX (x : FVec Ideal ⟨2, ![16384, 1024]⟩ .f32) (p : Fin 16384) : EReal :=
  Ideal.ofBits .f32 0x00000000#32 + ∑ k : Fin 1024, x (ix2 p k) * x (ix2 p k)

/-- The squared norm of row `q` of the 4096-row matrix. -/
def normSqY (y : FVec Ideal ⟨2, ![4096, 1024]⟩ .f32) (q : Fin 4096) : EReal :=
  Ideal.ofBits .f32 0x00000000#32 + ∑ k : Fin 1024, y (ix2 q k) * y (ix2 q k)

/-- The inner product of row `p` of `x` with row `q` of `y`. -/
def inner (x : FVec Ideal ⟨2, ![16384, 1024]⟩ .f32) (y : FVec Ideal ⟨2, ![4096, 1024]⟩ .f32) (p : Fin 16384) (q : Fin 4096) : EReal :=
  ∑ k : Fin 1024, x (ix2 p k) * y (ix2 q k)

/-- The expanded squared distance between row `p` of `x` and row `q` of `y`. -/
def distAt (x : FVec Ideal ⟨2, ![16384, 1024]⟩ .f32) (y : FVec Ideal ⟨2, ![4096, 1024]⟩ .f32) (p : Fin 16384) (q : Fin 4096) : EReal :=
  (normSqX x p + normSqY y q) - Ideal.ofBits .f32 0x40000000#32 * inner x y p q

/-- The whole table of expanded squared distances, index by index. -/
def dist (x : FVec Ideal ⟨2, ![16384, 1024]⟩ .f32) (y : FVec Ideal ⟨2, ![4096, 1024]⟩ .f32) : FVec Ideal ⟨2, ![16384, 4096]⟩ .f32 :=
  fun i => distAt x y (i 0) (i 1)

theorem dist_apply (x : FVec Ideal ⟨2, ![16384, 1024]⟩ .f32) (y : FVec Ideal ⟨2, ![4096, 1024]⟩ .f32) (p : Fin 16384) (q : Fin 4096) :
    dist x y (ix2 p q) = distAt x y p q := rfl

end Cert.SqDist

end
-- ==== Proof.RefDist.lean ====
/-
  The reference computes the expanded squared distance.

  Read one operation at a time, the reference's result at row `p`, column `q` is the difference of
  a sum and a product: the sum of two broadcasts, the one reading the column of row sums of `x ⊙ x`
  at `p`, the other the row of row sums of `y ⊙ y` at `q`; the product of the broadcast word of two
  with the contraction of `x` and `y` over their common last axis at `(p, q)`.  Each host sum is its
  initial value, the zero word, plus the sum along the row; the contraction is the sum over the 1024
  columns of the products.  That is `Cert.SqDist.dist` term for term.
-/
import proofs.«110236_j64914135712549_1_alg».proof.Proof.Gen.ReferenceIdeal.Read
import proofs.«110236_j64914135712549_1_alg».proof.Proof.SqDist

noncomputable section

open scoped BigOperators

namespace Cert.ReferenceIdeal.RefValue

open Cert.ReferenceIdeal Cert.ReferenceIdeal.Gen Cert.ReferenceIdeal.Read
open Idealize.ShloMosaic Idealize.ShloMosaic.ValueIdx

/-- Row `p`, column `k` of `x`, as the composed index maps of the broadcasts and the row sum reach it. -/
theorem idx_x (p : Fin 16384) (q : Fin 4096) (k : Fin 1024) :
    idx_main_v1 (idx_main_v2 (idx_main_v7 (ix2 p q))) k = ix2 p k :=
  funext fun a => Fin.ext (by match a with | ⟨0, _⟩ => rfl | ⟨1, _⟩ => rfl)

/-- Row `q`, column `k` of `y`, likewise. -/
theorem idx_y (p : Fin 16384) (q : Fin 4096) (k : Fin 1024) :
    idx_main_v4 (idx_main_v5 (idx_main_v8 (ix2 p q))) k = ix2 q k :=
  funext fun a => Fin.ext (by match a with | ⟨0, _⟩ => rfl | ⟨1, _⟩ => rfl)

/-- The contraction's left operand index at `(p, q)`, `k` is `(p, k)`. -/
theorem lidx_x (p : Fin 16384) (q : Fin 4096) (k : Fin 1024) : lidx_main_v6 (ix2 p q) k = ix2 p k :=
  funext fun a => Fin.ext (by match a with | ⟨0, _⟩ => rfl | ⟨1, _⟩ => rfl)

/-- and its right operand index is `(q, k)`. -/
theorem ridx_y (p : Fin 16384) (q : Fin 4096) (k : Fin 1024) : ridx_main_v6 (ix2 p q) k = ix2 q k :=
  funext fun a => Fin.ext (by match a with | ⟨0, _⟩ => rfl | ⟨1, _⟩ => rfl)

/-- The reference's last stage is the table of expanded squared distances of its two arguments. -/
theorem ref_is_dist (x : (⟨S16384x1024, .f32⟩ : BufTy).Contents (Elt Ideal)) (y : (⟨S4096x1024, .f32⟩ : BufTy).Contents (Elt Ideal)) :
    val_main_v12 (F := Ideal) x y = Cert.SqDist.dist x y := by
  funext i
  obtain ⟨p, q, rfl⟩ : ∃ (p : Fin 16384) (q : Fin 4096), i = ix2 p q := ⟨i 0, i 1, eq_ix2 i⟩
  rw [Cert.SqDist.dist_apply, val_main_v12_apply, val_main_v9_apply, val_main_v11_apply, val_main_v7_apply, val_main_v2_apply,
    val_main_v1_apply, val_main_v8_apply, val_main_v5_apply, val_main_v4_apply, val_main_v10_apply, val_main_v6_apply]
  simp only [val_main_v0_apply, val_main_v3_apply, val_main_cst_apply, val_main_cst_0_apply, val_main_cst_1_apply,
    idx_x, idx_y, lidx_x, ridx_y, Ideal.subf_def, Ideal.addf_def, Ideal.mulf_def, Ideal.ofBits_def,
    Cert.SqDist.distAt, Cert.SqDist.normSqX, Cert.SqDist.normSqY, Cert.SqDist.inner]

end Cert.ReferenceIdeal.RefValue

end
-- ==== Proof.LibColumnBroadcast.lean ====
/-
  A column broadcast across its row, read at an index.

  A two-axis array with one column, `[a, 1]`, broadcast by `vector.broadcast` to `[a, b]` reads, at row `p` and
  column `c`, the column's entry at row `p`: the unit axis is read at `0`, the other axis at the result's own
  coordinate.  (When `a = 1` the row coordinate is `0` on both sides.)  Any sizes, any element type.
-/
import Idealize.ShloMosaic.Lib.Pipeline.Value
import Idealize.ShloMosaic.Lib.ValueIdx

noncomputable section

namespace Cert.LibColumnBroadcast

open Idealize.ShloMosaic Idealize.ShloMosaic.ValueIdx

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumnBroadcast

end
-- ==== Proof.Payload.lean ====
/-
  The kernel body's one stored value, read at an entry of the block.

  At a grid point the body loads a 1024-row block `x` of the first matrix, a 512-row block `y` of the second,
  a 1024 × 1 column `s` of squared norms of the rows of `x` and a 1 × 512 row `t` of squared norms of the rows of
  `y`, and stores, at row `p` and column `q` of its 1024 × 512 block,

      (s_p + t_q) − 2 · Σ_k x_{p,k} · y_{q,k}.

  The column is broadcast across its row and the row down its column; the change of the two operands to a
  narrower format before the product is the identity on extended reals; the product into the zero accumulator
  contracts the last axis of both operands, so its entry at `(p, q)` is the sum over the 1024 columns of
  `x_{p,k} · y_{q,k}`.
-/
import proofs.«110236_j64914135712549_1_alg».proof.Proof.Gen.KernelIdeal.Skeleton
import proofs.«110236_j64914135712549_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-! ## The block product's operand indices -/

/-- The left operand is read at the output's row … -/
theorem lhs_row (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
/-- … and the contraction coordinate; -/
theorem lhs_col (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
/-- the right operand at the output's column, which is a ROW of the right operand, … -/
theorem rhs_row (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
/-- … and the contraction coordinate. -/
theorem rhs_col (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The block product into the zero accumulator, at `(p, q)`: the sum over the common axis of the products of row `p` of
    the left operand with row `q` of the right. -/
theorem product_apply (l : FVec Ideal S1024x1024 .bf16) (r : FVec Ideal S512x1024 .bf16) (p : Fin 1024) (q : Fin 512) :
    matmul dot_S1024x1024_S512x1024_S1024x512_1_1_0_0_n_n none l r (constant (F := Ideal) S1024x512 .f32 0x00000000#32) (ix2 p q)
      = ∑ k : Fin 1024, l (ix2 p k) * r (ix2 q k) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p q) ((contrEquiv1 dot_S1024x1024_S512x1024_S1024x512_1_1_0_0_n_n 1024 rfl rfl).symm k) = ix2 p k := funext fun a => Fin.ext (by
    match a with
    | ⟨0, _⟩ => exact lhs_row _ _
    | ⟨1, _⟩ => exact (lhs_col _ _).trans hk)
  have er : dot_S1024x1024_S512x1024_S1024x512_1_1_0_0_n_n.rhsIdx (ix2 p q) ((contrEquiv1 dot_S1024x1024_S512x1024_S1024x512_1_1_0_0_n_n 1024 rfl rfl).symm k) = ix2 q k := funext fun a => Fin.ext (by
    match a with
    | ⟨0, _⟩ => exact rhs_row _ _
    | ⟨1, _⟩ => exact (rhs_col _ _).trans hk)
  rw [el, er]

/-! ## The stored value -/

/-- The body's stored value at `(p, q)`: the two squared norms added, the doubled inner product of the two rows subtracted. -/
theorem stored_apply (x : Vec Ideal S1024x1024 .f32) (y : Vec Ideal S512x1024 .f32) (s : Vec Ideal S1024x1 .f32) (t : Vec Ideal S1x512 .f32)
    (p : Fin 1024) (q : Fin 512) :
    k0_pay1 (F := Ideal) x y s t (ix2 p q)
      = (s (ix2 p (0 : Fin 1)) + t (ix2 (0 : Fin 1) q)) - Ideal.ofBits .f32 0x40000000#32 * ∑ k : Fin 1024, x (ix2 p k) * y (ix2 q k) := by
  unfold k0_pay1
  rw [subf_apply, addf_apply, mulf_apply, broadcast_apply, shapeCast_self, shapeCast_self,
    Cert.LibColumnBroadcast.broadcastTo_a1_ab_apply, broadcastTo_1b_ab_apply, product_apply]
  rfl

end Cert.KernelIdeal.Payload

end
-- ==== Proof.HostNorms.lean ====
/-
  The two arrays of squared norms the kernel's launch prepares on the host.

  Before the region, the host squares the first argument entry by entry, sums each row from the zero word and
  lays the 16384 sums out as a 16384 × 1 column; it does the same with the second argument and lays the 4096 sums
  out as a 1 × 4096 row.  So the column at row `r` is the zero word plus the sum over the 1024 columns of the
  squares of row `r` of the first argument, and the row at column `r` the same for the second.  The region finds
  the two arguments themselves as they were launched.
-/
import proofs.«110236_j64914135712549_1_alg».proof.Proof.Gen.KernelIdeal.Frame
import proofs.«110236_j64914135712549_1_alg».proof.Proof.SqDist
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.HostNorms

open Cert.KernelIdeal Cert.KernelIdeal.Gen
open Idealize.ShloMosaic Idealize.ShloMosaic.TcCoe Idealize.SL.Sem Idealize.ShloMosaic.StableHlo Idealize.ShloMosaic.ValueIdx

/-! ## The host's row sums, laid out, read at an index -/

/-- The row sums of a 16384 × 1024 array from the zero word, laid out as a column, at row `r`. -/
theorem sumCol_apply (a : FVec Ideal S16384x1024 .f32) (r : Fin 16384) :
    broadcastInDim S16384x1 ![0] bcast_S16384_S16384x1_0
        (Host.reduceAdd (F := Ideal) a (constant (F := Ideal) S_ .f32 0x00000000#32) reducesTo_S16384x1024_S16384_d1 h_S_) (ix2 r (0 : Fin 1))
      = Ideal.ofBits .f32 0x00000000#32 + ∑ k : Fin 1024, a (ix2 r k) := by
  rw [broadcastInDim_apply _ bcast_S16384_S16384x1_0 _ (ix2 r (0 : Fin 1)) (ix1 r) (fun ax => match ax with
    | ⟨0, _⟩ => by show r.val = if (16384 : Nat) = 1 then 0 else r.val; rw [if_neg (by decide)])]
  simp only [Host.reduceAdd, Ideal.hostReduceAdd_def]
  rw [Ideal.hostReduceAdd_single reducesTo_S16384x1024_S16384_d1 (by decide)]
  refine congrArg (_ + ·) (Finset.sum_congr rfl fun k _ => ?_)
  exact congrArg a (funext fun ax => Fin.ext (by match ax with | ⟨0, _⟩ => rfl | ⟨1, _⟩ => rfl))

/-- The row sums of a 4096 × 1024 array from the zero word, laid out as a row, at column `r`. -/
theorem sumRow_apply (a : FVec Ideal S4096x1024 .f32) (r : Fin 4096) :
    broadcastInDim S1x4096 ![1] bcast_S4096_S1x4096_1
        (Host.reduceAdd (F := Ideal) a (constant (F := Ideal) S_ .f32 0x00000000#32) reducesTo_S4096x1024_S4096_d1 h_S_) (ix2 (0 : Fin 1) r)
      = Ideal.ofBits .f32 0x00000000#32 + ∑ k : Fin 1024, a (ix2 r k) := by
  rw [broadcastInDim_apply _ bcast_S4096_S1x4096_1 _ (ix2 (0 : Fin 1) r) (ix1 r) (fun ax => match ax with
    | ⟨0, _⟩ => by show r.val = if (4096 : Nat) = 1 then 0 else r.val; rw [if_neg (by decide)])]
  simp only [Host.reduceAdd, Ideal.hostReduceAdd_def]
  rw [Ideal.hostReduceAdd_single reducesTo_S4096x1024_S4096_d1 (by decide)]
  refine congrArg (_ + ·) (Finset.sum_congr rfl fun k _ => ?_)
  exact congrArg a (funext fun ax => Fin.ext (by match ax with | ⟨0, _⟩ => rfl | ⟨1, _⟩ => rfl))

/-! ## The arrays as the region finds them -/

variable (m : (ℓ : Loc nD τ sig) → Buf (Elt Ideal) ℓ)

/-- The column of squared norms the third window stages is the host's term of the first argument. -/
theorem V_normsX (c : Dev nD) : (V m c main_v2 : S16384x1.Idx → EReal)
    = broadcastInDim S16384x1 ![0] bcast_S16384_S16384x1_0
        (Host.reduceAdd (F := Ideal) (mulf (m ((c : Thread nD τ).loc main_arg0)) (m ((c : Thread nD τ).loc main_arg0)))
          (constant (F := Ideal) S_ .f32 0x00000000#32) reducesTo_S16384x1024_S16384_d1 h_S_) := by
  dsimp only [Gen.V, Gen.hostOps0]; after_results

/-- The row of squared norms the fourth window stages is the host's term of the second argument. -/
theorem V_normsY (c : Dev nD) : (V m c main_v5 : S1x4096.Idx → EReal)
    = broadcastInDim S1x4096 ![1] bcast_S4096_S1x4096_1
        (Host.reduceAdd (F := Ideal) (mulf (m ((c : Thread nD τ).loc main_arg1)) (m ((c : Thread nD τ).loc main_arg1)))
          (constant (F := Ideal) S_ .f32 0x00000000#32) reducesTo_S4096x1024_S4096_d1 h_S_) := by
  dsimp only [Gen.V, Gen.hostOps0]; after_results

/-- At row `r` the staged column holds the squared norm of row `r` of the first argument. -/
theorem V_normsX_apply (c : Dev nD) (r : Fin 16384) :
    (V m c main_v2 : S16384x1.Idx → EReal) (ix2 r (0 : Fin 1)) = Cert.SqDist.normSqX (m ((c : Thread nD τ).loc main_arg0)) r := by
  rw [V_normsX, sumCol_apply]
  rfl

/-- At column `r` the staged row holds the squared norm of row `r` of the second argument. -/
theorem V_normsY_apply (c : Dev nD) (r : Fin 4096) :
    (V m c main_v5 : S1x4096.Idx → EReal) (ix2 (0 : Fin 1) r) = Cert.SqDist.normSqY (m ((c : Thread nD τ).loc main_arg1)) r := by
  rw [V_normsY, sumRow_apply]
  rfl

end Cert.KernelIdeal.HostNorms

end
-- ==== Proof.Blocks.lean ====
/-
  From the blocks the grid points write to the whole result array.

  The grid has 16 × 8 points.  Point `(i, j)` stages rows `1024 i … 1024 i + 1023` of the first argument, rows
  `512 j … 512 j + 511` of the second, the matching 1024 entries of the column of squared norms and the matching
  512 entries of the row of squared norms, and writes back block `(i, j)` of the 16384 × 4096 result.  Entry
  `(p, q)` of what it writes is `(s_p + t_q) − 2 · Σ_k x_{p,k} · y_{q,k}` of the staged blocks, which is the expanded
  squared distance between row `1024 i + p` of the first argument and row `512 j + q` of the second: the entry of
  the distance table at `(1024 i + p, 512 j + q)`.  The 128 blocks tile the result, so after the run the result
  array is the distance table of the two arguments.
-/
import proofs.«110236_j64914135712549_1_alg».proof.Proof.Gen.KernelIdeal.Value
import proofs.«110236_j64914135712549_1_alg».proof.Proof.Payload
import proofs.«110236_j64914135712549_1_alg».proof.Proof.HostNorms
import proofs.«110236_j64914135712549_1_alg».proof.Proof.SqDist
import Idealize.ShloMosaic.Lib.Pipeline.Value
import Idealize.ShloMosaic.Lib.ValueIdx

noncomputable section

open scoped BigOperators

namespace Cert.KernelIdeal.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- Each input window moves with the output's block index: the first argument's rows and the column of norms with the
    output's row block, the second argument's rows and the row of norms with the output's column block; the other
    coordinate of each is zero.  The output's block indices stay inside 16 × 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 7 :=
  (by decide +kernel : ∀ t : Fin grid0.N, _)

/-- Every block of the 16 × 8 tiling is some point's. -/
theorem idx_onto : ∀ (q0 : Fin 16) (q1 : Fin 8), ∃ t : Fin cfg0.N, win0_4.index t = ![q0.val, q1.val] :=
  (by decide +kernel : ∀ (q0 : Fin 16) (q1 : Fin 8), ∃ t : Fin grid0.N, win0_4.index t = ![q0.val, q1.val])

/-! ## The staged blocks, read -/

/-- Row `p` of the first window's block is row `P` of the first argument, `P` being `p` past the block's first row. -/
theorem xblk_apply (c : Dev nD) (t : Fin cfg0.N) (p k : Fin 1024) (P : Fin 16384)
    (hP : P.val = win0_0.index t (0 : Fin 2) * 1024 + p.val) (h1 : win0_0.index t (1 : Fin 2) = 0) :
    (iblk m c 0 t : Vec Ideal S1024x1024 .f32) (ix2 p k) = (m ((c : Thread nD τ).loc main_arg0) : S16384x1024.Idx → EReal) (ix2 P k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * p.val = P.val; omega
  | ⟨1, _⟩ => show win0_0.index t (1 : Fin 2) * 1024 + 1 * k.val = k.val; rw [h1]; omega

/-- Row `q` of the second window's block is row `Q` of the second argument. -/
theorem yblk_apply (c : Dev nD) (t : Fin cfg0.N) (q : Fin 512) (k : Fin 1024) (Q : Fin 4096)
    (hQ : Q.val = win0_1.index t (0 : Fin 2) * 512 + q.val) (h1 : win0_1.index t (1 : Fin 2) = 0) :
    (iblk m c 1 t : Vec Ideal S512x1024 .f32) (ix2 q k) = (m ((c : Thread nD τ).loc main_arg1) : S4096x1024.Idx → EReal) (ix2 Q k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 512 + 1 * q.val = Q.val; omega
  | ⟨1, _⟩ => show win0_1.index t (1 : Fin 2) * 1024 + 1 * k.val = k.val; rw [h1]; omega

/-- Entry `p` of the third window's block is the squared norm of row `P` of the first argument. -/
theorem sblk_apply (c : Dev nD) (t : Fin cfg0.N) (p : Fin 1024) (P : Fin 16384)
    (hP : P.val = win0_2.index t (0 : Fin 2) * 1024 + p.val) (h1 : win0_2.index t (1 : Fin 2) = 0) :
    (iblk m c 2 t : Vec Ideal S1024x1 .f32) (ix2 p (0 : Fin 1)) = Cert.SqDist.normSqX (m ((c : Thread nD τ).loc main_arg0)) P := by
  unfold iblk
  rw [View.read_apply]
  show (V m c main_v2 : S16384x1.Idx → EReal) _ = _
  refine Eq.trans (congrArg (V m c main_v2 : S16384x1.Idx → EReal) (funext fun a => Fin.ext ?_)) (HostNorms.V_normsX_apply m c P)
  match a with
  | ⟨0, _⟩ => show win0_2.index t (0 : Fin 2) * 1024 + 1 * p.val = P.val; omega
  | ⟨1, _⟩ => show win0_2.index t (1 : Fin 2) * 1 + 1 * 0 = 0; rw [h1]

/-- Entry `q` of the fourth window's block is the squared norm of row `Q` of the second argument. -/
theorem tblk_apply (c : Dev nD) (t : Fin cfg0.N) (q : Fin 512) (Q : Fin 4096)
    (hQ : Q.val = win0_3.index t (1 : Fin 2) * 512 + q.val) (h0 : win0_3.index t (0 : Fin 2) = 0) :
    (iblk m c 3 t : Vec Ideal S1x512 .f32) (ix2 (0 : Fin 1) q) = Cert.SqDist.normSqY (m ((c : Thread nD τ).loc main_arg1)) Q := by
  unfold iblk
  rw [View.read_apply]
  show (V m c main_v5 : S1x4096.Idx → EReal) _ = _
  refine Eq.trans (congrArg (V m c main_v5 : S1x4096.Idx → EReal) (funext fun a => Fin.ext ?_)) (HostNorms.V_normsY_apply m c Q)
  match a with
  | ⟨0, _⟩ => show win0_3.index t (0 : Fin 2) * 1 + 1 * 0 = 0; rw [h0]
  | ⟨1, _⟩ => show win0_3.index t (1 : Fin 2) * 512 + 1 * q.val = Q.val; omega

/-! ## One entry of one block -/

/-- The body's stored value at `(p, q)`, over blocks whose rows are rows `P` and `Q` of two matrices and whose norm entries
    are those rows' squared norms, is the expanded squared distance between row `P` and row `Q`. -/
theorem stored_is_dist (x : Vec Ideal S1024x1024 .f32) (y : Vec Ideal S512x1024 .f32) (s : Vec Ideal S1024x1 .f32) (tt : Vec Ideal S1x512 .f32)
    (A0 : FVec Ideal ⟨2, ![16384, 1024]⟩ .f32) (A1 : FVec Ideal ⟨2, ![4096, 1024]⟩ .f32) (P : Fin 16384) (Q : Fin 4096) (p : Fin 1024) (q : Fin 512)
    (hx : ∀ k : Fin 1024, x (ix2 p k) = A0 (ix2 P k)) (hy : ∀ k : Fin 1024, y (ix2 q k) = A1 (ix2 Q k))
    (hs : s (ix2 p (0 : Fin 1)) = Cert.SqDist.normSqX A0 P) (ht : tt (ix2 (0 : Fin 1) q) = Cert.SqDist.normSqY A1 Q) :
    k0_pay1 (F := Ideal) x y s tt (ix2 p q) = Cert.SqDist.distAt A0 A1 P Q := by
  rw [Payload.stored_apply, hs, ht]
  unfold Cert.SqDist.distAt Cert.SqDist.inner
  exact congrArg (fun z => (Cert.SqDist.normSqX A0 P + Cert.SqDist.normSqY A1 Q) - Ideal.ofBits .f32 0x40000000#32 * z)
    (Finset.sum_congr rfl fun k _ => by rw [hx k, hy k])

/-! ## What a point writes back -/

/-- The distance table of the two arguments as launched. -/
abbrev table (c : Dev nD) : S16384x4096.Idx → EReal :=
  Cert.SqDist.dist (m ((c : Thread nD τ).loc main_arg0)) (m ((c : Thread nD τ).loc main_arg1))

/-- Point `t` writes back block `t` of the distance table. -/
theorem flushed_eq (c : Dev nD) (t : Fin cfg0.N) :
    (dats m 0 c).flushed 4 t = ((cfg0.win 4).blk t).view.read (Elt Ideal) (table m c) := by
  rw [Value.flushed4]
  unfold out0_4
  rw [View.canon_unit_zero hz]
  simp only [View.ld_unit_zero (S := S1024x1024) hz, View.ld_unit_zero (S := S512x1024) hz, View.ld_unit_zero (S := S1024x1) hz,
    View.ld_unit_zero (S := S1x512) hz]
  obtain ⟨e0, e1, e2, e3, e4, e5, e6, e7, e8, e9⟩ := idx_facts t
  funext j
  obtain ⟨p, q, rfl⟩ : ∃ (p : Fin 1024) (q : Fin 512), j = ix2 p q := ⟨j 0, j 1, eq_ix2 j⟩
  have hP : win0_4.index t (0 : Fin 2) * 1024 + 1 * p.val < 16384 := by have := p.isLt; omega
  have hQ : win0_4.index t (1 : Fin 2) * 512 + 1 * q.val < 4096 := by have := q.isLt; omega
  show k0_pay1 (F := Ideal) (iblk m c 0 t) (iblk m c 1 t) (iblk m c 2 t) (iblk m c 3 t) (ix2 p q)
    = Cert.SqDist.distAt (m ((c : Thread nD τ).loc main_arg0)) (m ((c : Thread nD τ).loc main_arg1))
        ⟨win0_4.index t (0 : Fin 2) * 1024 + 1 * p.val, hP⟩ ⟨win0_4.index t (1 : Fin 2) * 512 + 1 * q.val, hQ⟩
  refine stored_is_dist (iblk m c 0 t) (iblk m c 1 t) (iblk m c 2 t) (iblk m c 3 t)
    (m ((c : Thread nD τ).loc main_arg0)) (m ((c : Thread nD τ).loc main_arg1)) _ _ p q ?_ ?_ ?_ ?_
  · intro k; exact xblk_apply m c t p k _ (by show win0_4.index t (0 : Fin 2) * 1024 + 1 * p.val = _; omega) e1
  · intro k; exact yblk_apply m c t q k _ (by show win0_4.index t (1 : Fin 2) * 512 + 1 * q.val = _; omega) e3
  · exact sblk_apply m c t p _ (by show win0_4.index t (0 : Fin 2) * 1024 + 1 * p.val = _; omega) e5
  · exact tblk_apply m c t q _ (by show win0_4.index t (1 : Fin 2) * 512 + 1 * q.val = _; omega) e6

/-! ## The blocks tile the array -/

/-- An index of the result is in point `t`'s block iff each coordinate is in the block's range on its axis. -/
theorem mem_blk (t : Fin cfg0.N) (i : S16384x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v6).slice (win0_4.rect t)).set ↔ _
  rw [View.set_slice_whole, Rect.mem_set_unit]
  exact Iff.rfl

/-- Every index of the result lies in the block of the point whose block index is its row over 1024 and its column over 512. -/
theorem cover (i : S16384x4096.Idx) : ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨t, ht⟩ := idx_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-! ## The array after the run, and the run -/

/-- After the run the result array is the distance table of the two arguments. -/
theorem final (c : Dev nD) : (dats m 0 c).arrAt 4 cfg0.N = table m c :=
  (dats m 0 c).arrAt_eq_of_cover 4 (table m c) (fun t _ => flushed_eq m c t) cover

/-- The kernel's run, read: the result at the distance table of the arguments, the arguments unchanged. -/
theorem run : θ_run defs (onTc (τ := τ) (main (F := Ideal))) ⟨m, fun _ => 0, ρ⟩ fun r => ∀ c : Dev nD,
      r.2.mem ((c : Thread nD τ).loc main_v6) = table m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.lean ====
/-
  Pairwise squared Euclidean distances, tiled, against the plain expression.

  Both programs take a 16384 × 1024 matrix `x` and a 4096 × 1024 matrix `y` and produce the 16384 × 4096 table whose
  entry at `(p, q)` is the squared distance between row `p` of `x` and row `q` of `y` in its expanded form,

      (‖x_p‖² + ‖y_q‖²) − 2 · ⟨x_p, y_q⟩.

  The reference forms the two vectors of squared norms by row sums, the table of inner products by one contraction
  over the common axis, and combines them entry by entry.  The kernel forms the same two vectors of squared norms on
  the host, then runs a 16 × 8 grid; point `(i, j)` multiplies a 1024-row block of `x` with a 512-row block of `y`
  (after a change of format that is the identity on extended reals, into a zero accumulator) and writes the block
  `(i, j)` of the table from the matching pieces of the two norm vectors.

  Over the extended reals the two are the same function of the arguments, term for term: the same sums from the
  same zero word, the same word for two, the same grouping.  No law of arithmetic is used, so the finiteness of the
  inputs is not needed for the equality; the only content is bookkeeping of indices — that entry `(p, q)` of block
  `(i, j)` is entry `(1024 i + p, 512 j + q)` of the table, and that the 128 blocks tile it.

  The kernel's run with its result named block by block, the reference's run and its operations read one at a time
  are imported; the specification (`SqDist`), the reference against it (`RefDist`), the kernel body's stored value
  at an entry (`Payload`), the host's norm vectors (`HostNorms`) and the passage from blocks to the whole table
  (`Blocks`) are the modules beside this one.  The kernel read over the extended reals is the kernel's own text,
  operation for operation, so there is nothing to show about the passage from the one to the other.
-/
import proofs.«110236_j64914135712549_1_alg».proof.Defs
import proofs.«110236_j64914135712549_1_alg».proof.Proof.Gen.Kernel
import proofs.«110236_j64914135712549_1_alg».proof.Proof.Gen.Kernel.Skeleton
import proofs.«110236_j64914135712549_1_alg».proof.Proof.Gen.Kernel.Launch
import proofs.«110236_j64914135712549_1_alg».proof.Proof.Gen.Kernel.Points
import proofs.«110236_j64914135712549_1_alg».proof.Proof.Gen.Kernel.Frame
import proofs.«110236_j64914135712549_1_alg».proof.Proof.Gen.KernelIdeal
import proofs.«110236_j64914135712549_1_alg».proof.Proof.Gen.KernelIdeal.Skeleton
import proofs.«110236_j64914135712549_1_alg».proof.Proof.Gen.KernelIdeal.Launch
import proofs.«110236_j64914135712549_1_alg».proof.Proof.Gen.KernelIdeal.Points
import proofs.«110236_j64914135712549_1_alg».proof.Proof.Gen.KernelIdeal.Frame
import proofs.«110236_j64914135712549_1_alg».proof.Proof.Gen.ReferenceIdeal
import proofs.«110236_j64914135712549_1_alg».proof.Proof.Gen.Pre_finite_inputs
import proofs.«110236_j64914135712549_1_alg».proof.Proof.Gen.KernelIdeal.Value
import proofs.«110236_j64914135712549_1_alg».proof.Proof.Gen.ReferenceIdeal.Run
import proofs.«110236_j64914135712549_1_alg».proof.Proof.Gen.ReferenceIdeal.Read
import proofs.«110236_j64914135712549_1_alg».proof.Proof.RefDist
import proofs.«110236_j64914135712549_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end and leaves its two arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `y`, the kernel's result array ends at the distance table of its arguments
    (the blocks tile it) and the reference's at the same table of the same arguments (its last operation is the table). -/
theorem algebraic : Cert.algebraic_KernelIdeal_ReferenceIdeal := by
  intro m ρ m' ρ' _ hagree
  refine ⟨fun c => Cert.KernelIdeal.Blocks.table m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_is_dist, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
